-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384x128 : Shape := ⟨3, ![64, 16384, 128]⟩
abbrev S64x8x128 : Shape := ⟨3, ![64, 8, 128]⟩
abbrev S64x8 : Shape := ⟨2, ![64, 8]⟩
abbrev S_ : Shape := ⟨0, ![]⟩

class Facts : Prop where
  bcast_S_S64x16384x128 : S_.BroadcastsInDim S64x16384x128 (![] : Fin 0 → Fin S64x16384x128.rank)
  reducesTo_S64x16384x128_S_d0_1_2 : S64x16384x128.ReducesTo [0, 1, 2] S_
  h_S_ : 0 < S_.numel
  bcast_S_S64x8x128 : S_.BroadcastsInDim S64x8x128 (![] : Fin 0 → Fin S64x8x128.rank)
  reducesTo_S64x8x128_S_d0_1_2 : S64x8x128.ReducesTo [0, 1, 2] S_
  bcast_S_S64x8 : S_.BroadcastsInDim S64x8 (![] : Fin 0 → Fin S64x8.rank)
  reducesTo_S64x8_S_d0_1 : S64x8.ReducesTo [0, 1] S_

variable [Facts]

def fn {F : FTy → Type} [FloatOps F] (main_arg0 : FVec F S64x16384x128 .f32) (main_arg1 : FVec F S64x8x128 .f32) (main_arg2 : FVec F S64x8 .f32) : IVec S_ 1 :=
  let main_v0 : FVec F S64x16384x128 .f32 := Host.absf main_arg0
  let main_cst : FVec F S_ .f32 := constant S_ .f32 0x7F800000#32
  let main_v1 : FVec F S64x16384x128 .f32 := broadcastInDim S64x16384x128 ![] bcast_S_S64x16384x128 main_cst
  let main_v2 : IVec S64x16384x128 1 := cmpf .olt main_v0 main_v1
  let main_c : IVec S_ 1 := constantI S_ 1 1#1
  let main_v3 : IVec S_ 1 := (fun x v => Host.reduce IntOp.andi x v reducesTo_S64x16384x128_S_d0_1_2 h_S_) main_v2 main_c
  let main_v4 : FVec F S64x8x128 .f32 := Host.absf main_arg1
  let main_cst_0 : FVec F S_ .f32 := constant S_ .f32 0x7F800000#32
  let main_v5 : FVec F S64x8x128 .f32 := broadcastInDim S64x8x128 ![] bcast_S_S64x8x128 main_cst_0
  let main_v6 : IVec S64x8x128 1 := cmpf .olt main_v4 main_v5
  let main_c_1 : IVec S_ 1 := constantI S_ 1 1#1
  let main_v7 : IVec S_ 1 := (fun x v => Host.reduce IntOp.andi x v reducesTo_S64x8x128_S_d0_1_2 h_S_) main_v6 main_c_1
  let main_v8 : IVec S_ 1 := andi main_v3 main_v7
  let main_v9 : FVec F S64x8 .f32 := Host.absf main_arg2
  let main_cst_2 : FVec F S_ .f32 := constant S_ .f32 0x7F800000#32
  let main_v10 : FVec F S64x8 .f32 := broadcastInDim S64x8 ![] bcast_S_S64x8 main_cst_2
  let main_v11 : IVec S64x8 1 := cmpf .olt main_v9 main_v10
  let main_c_3 : IVec S_ 1 := constantI S_ 1 1#1
  let main_v12 : IVec S_ 1 := (fun x v => Host.reduce IntOp.andi x v reducesTo_S64x8_S_d0_1 h_S_) main_v11 main_c_3
  let main_v13 : IVec S_ 1 := andi main_v8 main_v12
  main_v13
-- ==== Kernel.lean ====
abbrev S64x16384x128 : Shape := ⟨3, ![64, 16384, 128]⟩
abbrev S64x8x128 : Shape := ⟨3, ![64, 8, 128]⟩
abbrev S64x8 : Shape := ⟨2, ![64, 8]⟩
abbrev S64x8x1 : Shape := ⟨3, ![64, 8, 1]⟩
abbrev S64x8x16384 : Shape := ⟨3, ![64, 8, 16384]⟩
abbrev S1x16384x128 : Shape := ⟨3, ![1, 16384, 128]⟩
abbrev S1x8x128 : Shape := ⟨3, ![1, 8, 128]⟩
abbrev S1x8x1 : Shape := ⟨3, ![1, 8, 1]⟩
abbrev S1x8x16384 : Shape := ⟨3, ![1, 8, 16384]⟩
abbrev S16384x128 : Shape := ⟨2, ![16384, 128]⟩
abbrev S8x128 : Shape := ⟨2, ![8, 128]⟩
abbrev S8x1 : Shape := ⟨2, ![8, 1]⟩
abbrev S8x16384 : Shape := ⟨2, ![8, 16384]⟩
abbrev S1x128 : Shape := ⟨2, ![1, 128]⟩
abbrev S1x16384 : Shape := ⟨2, ![1, 16384]⟩
abbrev S8 : Shape := ⟨1, ![8]⟩

abbrev nBuf : Space → Nat
  | .hbm => 5
  | .vmem => 8
  | .smem => 0
  | _ => 0

abbrev bufTy : (tb : Table) → Fin (tcTables nBuf tb) → BufTy
  | .hbm, ⟨0, _⟩ => ⟨S64x16384x128, .f32⟩
  | .hbm, ⟨1, _⟩ => ⟨S64x8x128, .f32⟩
  | .hbm, ⟨2, _⟩ => ⟨S64x8, .f32⟩
  | .hbm, ⟨3, _⟩ => ⟨S64x8x1, .f32⟩
  | .hbm, ⟨4, _⟩ => ⟨S64x8x16384, .f32⟩
  | .local _ .vmem, ⟨0, _⟩ => ⟨S1x16384x128, .f32⟩
  | .local _ .vmem, ⟨1, _⟩ => ⟨S1x16384x128, .f32⟩
  | .local _ .vmem, ⟨2, _⟩ => ⟨S1x8x128, .f32⟩
  | .local _ .vmem, ⟨3, _⟩ => ⟨S1x8x128, .f32⟩
  | .local _ .vmem, ⟨4, _⟩ => ⟨S1x8x1, .f32⟩
  | .local _ .vmem, ⟨5, _⟩ => ⟨S1x8x1, .f32⟩
  | .local _ .vmem, ⟨6, _⟩ => ⟨S1x8x16384, .f32⟩
  | .local _ .vmem, ⟨7, _⟩ => ⟨S1x8x16384, .f32⟩
  | _, _ => ⟨S64x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S64x8_S64x8x1_0_1 : S64x8.BroadcastsInDim S64x8x1 (![0, 1] : Fin 2 → Fin S64x8x1.rank)
  inb_S1x16384x128_S1x16384x128_0_0_0 : ∀ a, (![0, 0, 0] : Fin 3 → Nat) a + S1x16384x128.size a ≤ S1x16384x128.size a
  h_S1x16384x128 : 0 < S1x16384x128.numel
  shapeCasts_S1x16384x128_S16384x128 : S1x16384x128.ShapeCasts S16384x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  inb_S1x8x1_S1x8x1_0_0_0 : ∀ a, (![0, 0, 0] : Fin 3 → Nat) a + S1x8x1.size a ≤ S1x8x1.size a
  h_S1x8x1 : 0 < S1x8x1.numel
  shapeCasts_S1x8x1_S8x1 : S1x8x1.ShapeCasts S8x1
  bitsLt_bf16_f32 : FTy.bits .bf16 < FTy.bits .f32
  reduces_S8x128_S8 : S8x128.Reduces [1] S8
  shapeCasts_S8_S8x1 : S8.ShapeCasts S8x1
  broadcasts_S1x16384_S8x16384 : S1x16384.Broadcasts S8x16384
  broadcasts_S8x1_S8x16384 : S8x1.Broadcasts S8x16384
  reduces_S8x16384_S8 : S8x16384.Reduces [1] S8
  inb_S1x8x16384_S1x8x16384_0_0_0 : ∀ a, (![0, 0, 0] : Fin 3 → Nat) a + S1x8x16384.size a ≤ S1x8x16384.size a
  h_S1x8x16384 : 0 < S1x8x16384.numel
  shapeCasts_S1x8x16384_S8x16384 : S1x8x16384.ShapeCasts S8x16384
  shapeCasts_S8x16384_S1x8x16384 : S8x16384.ShapeCasts S1x8x16384
  dot_S8x128_S16384x128_S8x16384_1_1_0_0_n_n_wf : DotDims.WF S8x128 S16384x128 S8x16384 [1] [1] [0] [0] [] []
  dot_S1x128_S16384x128_S1x16384_1_1_0_0_n_n_wf : DotDims.WF S1x128 S16384x128 S1x16384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x128.size a ≤ S64x16384x128.size a
  hwx0_0 : ∀ i : grid0.Coords, EltTy.bits .f32 = 32 ∨ (Rect.block (s := S64x16384x128) S1x16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S64x8x128.size a
  hwx0_1 : ∀ i : grid0.Coords, EltTy.bits .f32 = 32 ∨ (Rect.block (s := S64x8x128) S1x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1.size a ≤ S64x8x1.size a
  hwx0_2 : ∀ i : grid0.Coords, EltTy.bits .f32 = 32 ∨ (Rect.block (s := S64x8x1) S1x8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x16384.size a ≤ S64x8x16384.size a
  hwx0_3 : ∀ i : grid0.Coords, EltTy.bits .f32 = 32 ∨ (Rect.block (s := S64x8x16384) S1x8x16384.size (cc0_transform_3 i) (hinb0_3 i)).WholeWords (EltTy.packing .f32)

variable [Facts₀]

def dot_S8x128_S16384x128_S8x16384_1_1_0_0_n_n : DotDims S8x128 S16384x128 S8x16384 where
  lhsContracting := [1]
  rhsContracting := [1]
  lhsNonContracting := [0]
  rhsNonContracting := [0]
  lhsBatch := []
  rhsBatch := []
  wf := dot_S8x128_S16384x128_S8x16384_1_1_0_0_n_n_wf
def dot_S1x128_S16384x128_S1x16384_1_1_0_0_n_n : DotDims S1x128 S16384x128 S1x16384 where
  lhsContracting := [1]
  rhsContracting := [1]
  lhsNonContracting := [0]
  rhsNonContracting := [0]
  lhsBatch := []
  rhsBatch := []
  wf := dot_S1x128_S16384x128_S1x16384_1_1_0_0_n_n_wf

abbrev win0_0 : Pipeline.Window sig grid0 :=
  Pipeline.Window.ofSpec (Memref.whole main_arg0) S1x16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x16384x128 : Shape := ⟨3, ![64, 16384, 128]⟩
abbrev S64x8x128 : Shape := ⟨3, ![64, 8, 128]⟩
abbrev S64x8 : Shape := ⟨2, ![64, 8]⟩
abbrev S64x8x16384 : Shape := ⟨3, ![64, 8, 16384]⟩
abbrev S_ : Shape := ⟨0, ![]⟩
abbrev S64x16384 : Shape := ⟨2, ![64, 16384]⟩
abbrev S64x1x16384 : Shape := ⟨3, ![64, 1, 16384]⟩
abbrev S64x8x1 : Shape := ⟨3, ![64, 8, 1]⟩

abbrev nBuf : Space → Nat
  | .hbm => 52
  | .vmem => 0
  | .smem => 0
  | _ => 0

abbrev bufTy : (tb : Table) → Fin (tcTables nBuf tb) → BufTy
  | .hbm, ⟨0, _⟩ => ⟨S64x16384x128, .f32⟩
  | .hbm, ⟨1, _⟩ => ⟨S64x8x128, .f32⟩
  | .hbm, ⟨2, _⟩ => ⟨S64x8, .f32⟩
  | .hbm, ⟨3, _⟩ => ⟨S64x8x16384, .f32⟩
  | .hbm, ⟨4, _⟩ => ⟨S64x16384x128, .f32⟩
  | .hbm, ⟨5, _⟩ => ⟨S_, .f32⟩
  | .hbm, ⟨6, _⟩ => ⟨S64x16384, .f32⟩
  | .hbm, ⟨7, _⟩ => ⟨S64x16384, .f32⟩
  | .hbm, ⟨8, _⟩ => ⟨S64x8x128, .f32⟩
  | .hbm, ⟨9, _⟩ => ⟨S_, .f32⟩
  | .hbm, ⟨10, _⟩ => ⟨S64x8, .f32⟩
  | .hbm, ⟨11, _⟩ => ⟨S64x8, .f32⟩
  | .hbm, ⟨12, _⟩ => ⟨S64x1x16384, .f32⟩
  | .hbm, ⟨13, _⟩ => ⟨S64x8x1, .f32⟩
  | .hbm, ⟨14, _⟩ => ⟨S64x8x16384, .f32⟩
  | .hbm, ⟨15, _⟩ => ⟨S64x8x16384, .f32⟩
  | .hbm, ⟨16, _⟩ => ⟨S64x8x16384, .f32⟩
  | .hbm, ⟨17, _⟩ => ⟨S_, .f32⟩
  | .hbm, ⟨18, _⟩ => ⟨S64x8x16384, .f32⟩
  | .hbm, ⟨19, _⟩ => ⟨S64x8x16384, .f32⟩
  | .hbm, ⟨20, _⟩ => ⟨S64x8x16384, .f32⟩
  | .hbm, ⟨21, _⟩ => ⟨S_, .f32⟩
  | .hbm, ⟨22, _⟩ => ⟨S64x8, .f32⟩
  | .hbm, ⟨23, _⟩ => ⟨S64x8, .f32⟩
  | .hbm, ⟨24, _⟩ => ⟨S64x8, .f32⟩
  | .hbm, ⟨25, _⟩ => ⟨S64x8, .f32⟩
  | .hbm, ⟨26, _⟩ => ⟨S64x8, .i1⟩
  | .hbm, ⟨27, _⟩ => ⟨S64x8, .f32⟩
  | .hbm, ⟨28, _⟩ => ⟨S64x8, .f32⟩
  | .hbm, ⟨29, _⟩ => ⟨S64x8, .f32⟩
  | .hbm, ⟨30, _⟩ => ⟨S64x8, .f32⟩
  | .hbm, ⟨31, _⟩ => ⟨S64x8, .f32⟩
  | .hbm, ⟨32, _⟩ => ⟨S64x8, .f32⟩
  | .hbm, ⟨33, _⟩ => ⟨S64x8, .f32⟩
  | .hbm, ⟨34, _⟩ => ⟨S64x8, .f32⟩
  | .hbm, ⟨35, _⟩ => ⟨S64x8x1, .f32⟩
  | .hbm, ⟨36, _⟩ => ⟨S64x8x16384, .f32⟩
  | .hbm, ⟨37, _⟩ => ⟨S64x8x16384, .f32⟩
  | .hbm, ⟨38, _⟩ => ⟨S_, .f32⟩
  | .hbm, ⟨39, _⟩ => ⟨S64x8, .f32⟩
  | .hbm, ⟨40, _⟩ => ⟨S_, .f32⟩
  | .hbm, ⟨41, _⟩ => ⟨S64x8, .f32⟩
  | .hbm, ⟨42, _⟩ => ⟨S64x8, .f32⟩
  | .hbm, ⟨43, _⟩ => ⟨S64x8x1, .f32⟩
  | .hbm, ⟨44, _⟩ => ⟨S64x8x16384, .f32⟩
  | .hbm, ⟨45, _⟩ => ⟨S64x8x16384, .f32⟩
  | .hbm, ⟨46, _⟩ => ⟨S64x8x16384, .f32⟩
  | .hbm, ⟨47, _⟩ => ⟨S_, .f32⟩
  | .hbm, ⟨48, _⟩ => ⟨S64x8, .f32⟩
  | .hbm, ⟨49, _⟩ => ⟨S64x8x1, .f32⟩
  | .hbm, ⟨50, _⟩ => ⟨S64x8x16384, .f32⟩
  | .hbm, ⟨51, _⟩ => ⟨S64x8x16384, .f32⟩
  | _, _ => ⟨S64x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v1 : Ref sig .tc := ⟨.hbm, 7, rfl⟩
abbrev main_call1_v0 : Ref sig .tc := ⟨.hbm, 8, rfl⟩
abbrev main_call1_cst : Ref sig .tc := ⟨.hbm, 9, rfl⟩
abbrev main_call1_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call2_cst : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩

abbrev nD : Nat := 1
abbrev τ : Topo := Topo.v7x

variable {F : FTy → Type} [FloatOps F]

class Facts₀ : Prop where
  reducesTo_S64x16384x128_S64x16384_d2 : S64x16384x128.ReducesTo [2] S64x16384
  h_S_ : 0 < S_.numel
  reducesTo_S64x8x128_S64x8_d2 : S64x8x128.ReducesTo [2] S64x8
  bcast_S64x16384_S64x1x16384_0_2 : S64x16384.BroadcastsInDim S64x1x16384 (![0, 2] : Fin 2 → Fin S64x1x16384.rank)
  bcast_S64x8_S64x8x1_0_1 : S64x8.BroadcastsInDim S64x8x1 (![0, 1] : Fin 2 → Fin S64x8x1.rank)
  bcast_S64x1x16384_S64x8x16384_0_1_2 : S64x1x16384.BroadcastsInDim S64x8x16384 (![0, 1, 2] : Fin 3 → Fin S64x8x16384.rank)
  bcast_S64x8x1_S64x8x16384_0_1_2 : S64x8x1.BroadcastsInDim S64x8x16384 (![0, 1, 2] : Fin 3 → Fin S64x8x16384.rank)
  bcast_S_S64x8x16384 : S_.BroadcastsInDim S64x8x16384 (![] : Fin 0 → Fin S64x8x16384.rank)
  bcast_S_S64x8 : S_.BroadcastsInDim S64x8 (![] : Fin 0 → Fin S64x8.rank)
  reducesTo_S64x8x16384_S64x8_d2 : S64x8x16384.ReducesTo [2] S64x8
  dot_S64x8x128_S64x16384x128_S64x8x16384_2_2_1_1_0_0_wf : DotDims.WF S64x8x128 S64x16384x128 S64x8x16384 [2] [2] [1] [1] [0] [0]

variable [Facts₀]

def dot_S64x8x128_S64x16384x128_S64x8x16384_2_2_1_1_0_0 : DotDims S64x8x128 S64x16384x128 S64x8x16384 where
  lhsContracting := [2]
  rhsContracting := [2]
  lhsNonContracting := [1]
  rhsNonContracting := [1]
  lhsBatch := [0]
  rhsBatch := [0]
  wf := dot_S64x8x128_S64x16384x128_S64x8x16384_2_2_1_1_0_0_wf

class Facts : Prop extends Facts₀ where

variable [Facts]
-- ==== Proof.Dots.lean ====
/-
  The kernel's two matrix products, read at an index of the result. Both contract the last axis of their operands
  and accumulate into zero, so the entry at `(r, j)` is the plain sum over `w` of `a (r, w) · b (j, w)`: for the
  keys against the memory rows this is the inner product of key `r` with row `j`; for a single row of ones against
  the squared memory it is the sum of squares of row `j`.
-/
import proofs.«178364_j18262200942963_1_alg».proof.Proof.Gen.KernelIdeal
import Idealize.ShloMosaic.Lib.ValueIdx
import Idealize.ShloMosaic.PureOps.Ideal.Laws

noncomputable section

namespace Cert.KernelIdeal.Dots

open Cert.KernelIdeal Cert.KernelIdeal.Gen Idealize.ShloMosaic Idealize.ShloMosaic.ValueIdx

/-! ## Which coordinate of the result or of the contraction each operand axis reads -/

theorem lhs_keys_0 (i : S8x16384.Idx) (q : dot_S8x128_S16384x128_S8x16384_1_1_0_0_n_n.contr.Idx) :
    (dot_S8x128_S16384x128_S8x16384_1_1_0_0_n_n.lhsIdx i q 0).val = (i 0).val := by
  unfold DotDims.lhsIdx
  rw [dif_neg (show ¬(0 : Fin S8x128.rank) ∈ dot_S8x128_S16384x128_S8x16384_1_1_0_0_n_n.lhsBatch by decide), dif_pos (show (0 : Fin S8x128.rank) ∈ dot_S8x128_S16384x128_S8x16384_1_1_0_0_n_n.lhsNonContracting by decide)]
  rfl
theorem lhs_keys_1 (i : S8x16384.Idx) (q : dot_S8x128_S16384x128_S8x16384_1_1_0_0_n_n.contr.Idx) :
    (dot_S8x128_S16384x128_S8x16384_1_1_0_0_n_n.lhsIdx i q 1).val = (q ⟨0, by decide⟩).val :=
  dot_S8x128_S16384x128_S8x16384_1_1_0_0_n_n.lhsIdx_val_of_single rfl i q
theorem rhs_keys_0 (i : S8x16384.Idx) (q : dot_S8x128_S16384x128_S8x16384_1_1_0_0_n_n.contr.Idx) :
    (dot_S8x128_S16384x128_S8x16384_1_1_0_0_n_n.rhsIdx i q 0).val = (i 1).val := by
  unfold DotDims.rhsIdx
  rw [dif_neg (show ¬(0 : Fin S16384x128.rank) ∈ dot_S8x128_S16384x128_S8x16384_1_1_0_0_n_n.rhsBatch by decide), dif_pos (show (0 : Fin S16384x128.rank) ∈ dot_S8x128_S16384x128_S8x16384_1_1_0_0_n_n.rhsNonContracting by decide)]
  rfl
theorem rhs_keys_1 (i : S8x16384.Idx) (q : dot_S8x128_S16384x128_S8x16384_1_1_0_0_n_n.contr.Idx) :
    (dot_S8x128_S16384x128_S8x16384_1_1_0_0_n_n.rhsIdx i q 1).val = (q ⟨0, by decide⟩).val :=
  dot_S8x128_S16384x128_S8x16384_1_1_0_0_n_n.rhsIdx_val_of_single rfl i q

theorem lhs_ones_0 (i : S1x16384.Idx) (q : dot_S1x128_S16384x128_S1x16384_1_1_0_0_n_n.contr.Idx) :
    (dot_S1x128_S16384x128_S1x16384_1_1_0_0_n_n.lhsIdx i q 0).val = (i 0).val := by
  unfold DotDims.lhsIdx
  rw [dif_neg (show ¬(0 : Fin S1x128.rank) ∈ dot_S1x128_S16384x128_S1x16384_1_1_0_0_n_n.lhsBatch by decide), dif_pos (show (0 : Fin S1x128.rank) ∈ dot_S1x128_S16384x128_S1x16384_1_1_0_0_n_n.lhsNonContracting by decide)]
  rfl
theorem lhs_ones_1 (i : S1x16384.Idx) (q : dot_S1x128_S16384x128_S1x16384_1_1_0_0_n_n.contr.Idx) :
    (dot_S1x128_S16384x128_S1x16384_1_1_0_0_n_n.lhsIdx i q 1).val = (q ⟨0, by decide⟩).val :=
  dot_S1x128_S16384x128_S1x16384_1_1_0_0_n_n.lhsIdx_val_of_single rfl i q
theorem rhs_ones_0 (i : S1x16384.Idx) (q : dot_S1x128_S16384x128_S1x16384_1_1_0_0_n_n.contr.Idx) :
    (dot_S1x128_S16384x128_S1x16384_1_1_0_0_n_n.rhsIdx i q 0).val = (i 1).val := by
  unfold DotDims.rhsIdx
  rw [dif_neg (show ¬(0 : Fin S16384x128.rank) ∈ dot_S1x128_S16384x128_S1x16384_1_1_0_0_n_n.rhsBatch by decide), dif_pos (show (0 : Fin S16384x128.rank) ∈ dot_S1x128_S16384x128_S1x16384_1_1_0_0_n_n.rhsNonContracting by decide)]
  rfl
theorem rhs_ones_1 (i : S1x16384.Idx) (q : dot_S1x128_S16384x128_S1x16384_1_1_0_0_n_n.contr.Idx) :
    (dot_S1x128_S16384x128_S1x16384_1_1_0_0_n_n.rhsIdx i q 1).val = (q ⟨0, by decide⟩).val :=
  dot_S1x128_S16384x128_S1x16384_1_1_0_0_n_n.rhsIdx_val_of_single rfl i q

/-! ## The products at an index -/

/-- Keys against memory rows: entry `(h, j)` is the inner product of key `h` with memory row `j`. -/
theorem keys_dot_mem (a : FVec Ideal S8x128 .bf16) (b : FVec Ideal S16384x128 .bf16) (r : Fin 8) (j : Fin 16384) :
    matmul dot_S8x128_S16384x128_S8x16384_1_1_0_0_n_n none a b (constant S8x16384 .f32 0x00000000#32) (ix2 r j)
      = ∑ w : Fin 128, (a (ix2 r w) : EReal) * b (ix2 j w) := by
  simp only [matmul]
  rw [Ideal.matmul_constant_zero_apply, ← Equiv.sum_comp (contrEquiv1 dot_S8x128_S16384x128_S8x16384_1_1_0_0_n_n 128 rfl rfl).symm]
  refine Finset.sum_congr rfl fun k _ => ?_
  have hk := contrEquiv1_symm_val dot_S8x128_S16384x128_S8x16384_1_1_0_0_n_n 128 rfl rfl k
  have el : dot_S8x128_S16384x128_S8x16384_1_1_0_0_n_n.lhsIdx (ix2 r j) ((contrEquiv1 dot_S8x128_S16384x128_S8x16384_1_1_0_0_n_n 128 rfl rfl).symm k) = ix2 r k := funext fun x => Fin.ext (by
    match x with
    | ⟨0, _⟩ => exact lhs_keys_0 _ _
    | ⟨1, _⟩ => exact (lhs_keys_1 _ _).trans hk)
  have er : dot_S8x128_S16384x128_S8x16384_1_1_0_0_n_n.rhsIdx (ix2 r j) ((contrEquiv1 dot_S8x128_S16384x128_S8x16384_1_1_0_0_n_n 128 rfl rfl).symm k) = ix2 j k := funext fun x => Fin.ext (by
    match x with
    | ⟨0, _⟩ => exact rhs_keys_0 _ _
    | ⟨1, _⟩ => exact (rhs_keys_1 _ _).trans hk)
  rw [el, er]

/-- A one-row left operand against the memory-shaped right operand: entry `(0, j)` is the sum over `w` of the row's entry times `b (j, w)`. -/
theorem row_dot_mem (a : FVec Ideal S1x128 .bf16) (b : FVec Ideal S16384x128 .bf16) (r : Fin 1) (j : Fin 16384) :
    matmul dot_S1x128_S16384x128_S1x16384_1_1_0_0_n_n none a b (constant S1x16384 .f32 0x00000000#32) (ix2 r j)
      = ∑ w : Fin 128, (a (ix2 r w) : EReal) * b (ix2 j w) := by
  simp only [matmul]
  rw [Ideal.matmul_constant_zero_apply, ← Equiv.sum_comp (contrEquiv1 dot_S1x128_S16384x128_S1x16384_1_1_0_0_n_n 128 rfl rfl).symm]
  refine Finset.sum_congr rfl fun k _ => ?_
  have hk := contrEquiv1_symm_val dot_S1x128_S16384x128_S1x16384_1_1_0_0_n_n 128 rfl rfl k
  have el : dot_S1x128_S16384x128_S1x16384_1_1_0_0_n_n.lhsIdx (ix2 r j) ((contrEquiv1 dot_S1x128_S16384x128_S1x16384_1_1_0_0_n_n 128 rfl rfl).symm k) = ix2 r k := funext fun x => Fin.ext (by
    match x with
    | ⟨0, _⟩ => exact lhs_ones_0 _ _
    | ⟨1, _⟩ => exact (lhs_ones_1 _ _).trans hk)
  have er : dot_S1x128_S16384x128_S1x16384_1_1_0_0_n_n.rhsIdx (ix2 r j) ((contrEquiv1 dot_S1x128_S16384x128_S1x16384_1_1_0_0_n_n 128 rfl rfl).symm k) = ix2 j k := funext fun x => Fin.ext (by
    match x with
    | ⟨0, _⟩ => exact rhs_ones_0 _ _
    | ⟨1, _⟩ => exact (rhs_ones_1 _ _).trans hk)
  rw [el, er]

/-- The bf16 pattern of one is the number one. -/
theorem one_bf16 : Ideal.ofBits .bf16 0x3F80#16 = 1 := IdealRules.sign_bit.ideal_onePat .bf16

end Cert.KernelIdeal.Dots

end
-- ==== Proof.Spec.lean ====
/-
  The function both programs compute, for one batch entry: from a memory matrix `mem : 16384 × 128`, eight keys
  `key : 8 × 128` and eight strengths `str`, the cosine score of key `h` against memory row `j`,

      score h j / (‖mem j‖ · ‖key h‖ + ε),

  scaled by `softplus (str h)`, then a softmax along `j`. Everything is read on the extended reals, where sums,
  products, `max`, the square root, the exponential and `log (1 + ·)` are total; the softmax subtracts the row's
  maximum, taken as a fold of `max` from `-∞`, exactly as both programs do. The small constant `ε` and `-∞` are kept
  as the bit patterns the programs write: both sides carry the same words, so they are never evaluated.

  Also here: the two spellings of softplus the programs use are one function. Both write
  `max s 0 + log1p (exp (−|s − 0|))` guarded by a test "is `s − 0` different from itself", which on the extended reals
  never fires; one negates by `0 − x`, the other by `−x`.
-/
import Idealize.ShloMosaic.PureOps.Ideal
import Idealize.ShloMosaic.PureOps.Ideal.Laws
import Idealize.ShloMosaic.Lib.ValueIdx

noncomputable section

namespace Cert.CosineWeights

open Idealize.ShloMosaic Idealize.ShloMosaic.ValueIdx

/-- The constant added to the product of the norms (the f32 nearest 1e-6), as the pattern both programs write. -/
def eps : EReal := Ideal.ofBits .f32 0x358637BD#32

/-- `-∞`, the start of the row maximum, as the pattern both programs write. -/
def negInf : EReal := Ideal.ofBits .f32 0xFF800000#32

/-- `softplus s = max s 0 + log (1 + exp (−|s|))`, with `|s| = max s (−s)`. -/
def softplus (s : EReal) : EReal := max s 0 + Ideal.log1p (Ideal.exp (-(max s (-s))))

section Row

variable (mem : Fin 16384 → Fin 128 → EReal) (key : Fin 8 → Fin 128 → EReal) (str : Fin 8 → EReal)

/-- The inner product of key `h` with memory row `j`. -/
def score (h : Fin 8) (j : Fin 16384) : EReal := ∑ w : Fin 128, key h w * mem j w

/-- The Euclidean norm of memory row `j`. -/
def memNorm (j : Fin 16384) : EReal := Ideal.sqrt (∑ w : Fin 128, mem j w * mem j w)

/-- The Euclidean norm of key `h`. -/
def keyNorm (h : Fin 8) : EReal := Ideal.sqrt (∑ w : Fin 128, key h w * key h w)

/-- The cosine score sharpened by the key's strength. -/
def weighted (h : Fin 8) (j : Fin 16384) : EReal :=
  Ideal.div (score mem key h j) (memNorm mem j * keyNorm key h + eps) * softplus (str h)

/-- The largest weighted score of key `h` over the memory rows (from `-∞`, and once more against `-∞`). -/
def rowMax (h : Fin 8) : EReal :=
  max negInf ((Finset.univ : Finset (Fin 16384)).fold max negInf (fun j => weighted mem key str h j))

/-- The softmax numerator. -/
def expo (h : Fin 8) (j : Fin 16384) : EReal := Ideal.exp (weighted mem key str h j - rowMax mem key str h)

/-- The attention weight of key `h` on memory row `j`. -/
def attn (h : Fin 8) (j : Fin 16384) : EReal :=
  Ideal.div (expo mem key str h j) (∑ j' : Fin 16384, expo mem key str h j')

end Row

/-- The whole result: batch entry `i 0`, key `i 1`, memory row `i 2`. -/
def G (M : (⟨3, ![64, 16384, 128]⟩ : Shape).Idx → EReal) (K : (⟨3, ![64, 8, 128]⟩ : Shape).Idx → EReal)
    (S : (⟨2, ![64, 8]⟩ : Shape).Idx → EReal) : (⟨3, ![64, 8, 16384]⟩ : Shape).Idx → EReal := fun i =>
  attn (fun j w => M (ix3 (i 0) j w)) (fun h w => K (ix3 (i 0) h w)) (fun h => S (ix2 (i 0) h)) (i 1) (i 2)

/-! ## The two spellings of softplus -/

/-- Comparing an extended real with itself for "different" answers no, under either predicate the programs use. -/
theorem cmp_one_self (x : EReal) : Ideal.cmp .one x x = 0#1 := by simp [Ideal.cmp]
theorem cmp_une_self (x : EReal) : Ideal.cmp .une x x = 0#1 := by simp [Ideal.cmp]

/-- The spelling that negates by subtracting from zero. -/
theorem softplus_sub (s : EReal) :
    Scalar.select (Ideal.cmp .one (s - 0) (s - 0)) (s + 0) (max s 0 + Ideal.log1p (Ideal.exp (0 - max (s - 0) (-(s - 0)))))
      = softplus s := by
  rw [cmp_one_self, select_zero, sub_zero, zero_sub]; rfl

/-- The spelling that negates outright. -/
theorem softplus_neg (s : EReal) :
    Scalar.select (Ideal.cmp .une (s - 0) (s - 0)) (s + 0) (max s 0 + Ideal.log1p (Ideal.exp (-(max (s - 0) (-(s - 0))))))
      = softplus s := by
  rw [cmp_une_self, select_zero, sub_zero]; rfl

end Cert.CosineWeights

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibRowReduce.lean ====
/-
  A reduction along the lanes of a two-axis array, read at a row, at any extents: the sum of an `[a, b]` array over
  its second axis is, at row `r`, the sum over `k` of the entries `(r, k)`; its maximum over the second axis is the fold
  of `max` over those entries from the starting value. The accumulator's pattern is the operation's own
  (zero for a sum, `-∞` for a maximum), and the hypothesis that it is the neutral one is taken as an equation between
  the pattern and itself, the form in which the operation's term holds it.
-/
import Idealize.ShloMosaic.PureOps.Ideal.Laws
import Idealize.ShloMosaic.Lib.ValueIdx

namespace Cert.LibRowReduce

open Idealize.ShloMosaic Idealize.ShloMosaic.ValueIdx

/-- Row `r` with the lane coordinate `k` put back is the index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The lane sum of an `[a, b]` array at row `r`. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  (Ideal.multiReduction_add_single src 0x00000000#32 h hφ hacc (ix1 r)).trans
    (Finset.sum_congr rfl fun k _ => congrArg src (lift_row h r k))

/-- The lane maximum of an `[a, b]` array at row `r`, from `-∞`. -/
theorem laneMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction .maximumf [1] ⟨1, ![a]⟩ src 0xFF800000#32 h hφ hacc (ix1 r)
      = (Finset.univ : Finset (Fin b)).fold max (Ideal.ofBits .f32 0xFF800000#32) (fun k => src (ix2 r k)) :=
  (Ideal.multiReduction_maximumf_single src 0xFF800000#32 h hφ hacc (ix1 r)).trans
    (congrArg (Finset.fold max (Ideal.ofBits .f32 0xFF800000#32) · Finset.univ) (funext fun k => congrArg src (lift_row h r k)))

end Cert.LibRowReduce
-- ==== Proof.Payload.lean ====
import proofs.«178364_j18262200942963_1_alg».proof.Proof.Gen.KernelIdeal.Skeleton
import proofs.«178364_j18262200942963_1_alg».proof.Proof.Dots
import proofs.«178364_j18262200942963_1_alg».proof.Proof.Spec
import proofs.«178364_j18262200942963_1_alg».proof.Proof.LibKeepdims
import proofs.«178364_j18262200942963_1_alg».proof.Proof.LibRowReduce
import Idealize.ShloMosaic.Lib.ValueLayout
import Idealize.ShloMosaic.Lib.Pipeline.Value
import Idealize.ShloMosaic.PureOps.Ideal.Laws

/-
  What one grid point computes before the softmax: the kernel's weighted-score block, read at key `h` and memory row
  `j`, is the specification's `weighted` of the point's three input blocks (each block has a leading unit axis, so
  memory row `j` is `P0 (0, j, ·)`, key `h` is `P1 (0, h, ·)`, strength `h` is `P2 (0, h, 0)`).
  The steps: the score is the first matrix product at `(h, j)`; the memory norm is the square root of the second
  product (a row of ones against the squared memory) at `(0, j)`, where the factor one drops out; the key norm is
  the square root of a lane sum; the changes of number format are the identity on the extended reals; the three
  broadcasts and the shape casts only move the index; and the strength goes through softplus in the spelling that
  negates by subtracting from zero.
-/
noncomputable section
namespace Cert.KernelIdeal.Payload
open Cert.KernelIdeal Cert.KernelIdeal.Gen Idealize.ShloMosaic Idealize.ShloMosaic.ValueIdx Cert.CosineWeights

theorem weighted_block (P0 : Vec Ideal S1x16384x128 .f32) (P1 : Vec Ideal S1x8x128 .f32) (P2 : Vec Ideal S1x8x1 .f32)
    (h : Fin 8) (j : Fin 16384) :
    k0_pay2 (F := Ideal) P0 P1 P2 (ix2 h j)
      = weighted (fun j w => P0 (ix3 (0 : Fin 1) j w)) (fun h w => P1 (ix3 (0 : Fin 1) h w))
          (fun h => P2 (ix3 (0 : Fin 1) h (0 : Fin 1))) h j := by
  unfold k0_pay2
  simp only [mulf, divf, addf, subf, maximumf, exp, log1p, absf, sqrt, select, cmpf, broadcast, truncf]
  rw [Dots.keys_dot_mem, broadcastTo_1b_ab_apply, LibKeepdims.broadcastTo_a1_ab_apply, LibKeepdims.broadcastTo_a1_ab_apply]
  simp only [sqrt, select, cmpf, subf, addf, maximumf, log1p, exp, absf, broadcast, truncf, mulf]
  rw [Dots.row_dot_mem, LibKeepdims.shapeCast_a_a1_apply, LibRowReduce.laneSum_apply]
  simp only [mulf, truncf, broadcast, shapeCast_1ab_ab_apply]
  simp only [Ideal.mulf_def, Ideal.divf_def, Ideal.addf_def, Ideal.subf_def, Ideal.maximumf_def, Ideal.truncf_def,
    Ideal.sqrt_def, Ideal.exp_def, Ideal.log1p_def, Ideal.absf_def, Ideal.cmpf_def, Ideal.ofBits_def,
    Ideal.ofBits_zero_f32, Dots.one_bf16, one_mul, softplus_sub]
  rfl

end Cert.KernelIdeal.Payload
end
-- ==== Proof.Block.lean ====
import proofs.«178364_j18262200942963_1_alg».proof.Proof.Gen.KernelIdeal.Value
import proofs.«178364_j18262200942963_1_alg».proof.Proof.Payload
import proofs.«178364_j18262200942963_1_alg».proof.Proof.Spec
import proofs.«178364_j18262200942963_1_alg».proof.Proof.LibKeepdims
import proofs.«178364_j18262200942963_1_alg».proof.Proof.LibRowReduce
import Idealize.ShloMosaic.Lib.ValueLayout
import Idealize.ShloMosaic.Lib.Pipeline.Value
import Idealize.ShloMosaic.PureOps.Ideal.Laws

/-
  What one grid point stores: the softmax, along the memory rows, of the point's weighted scores. The block the
  point leaves, read at `(0, h, j)`, is `exp (W h j − m h) / Σ_k exp (W h k − m h)` with `W` the weighted scores of
  the point's input blocks and `m h` their maximum over `k` (a fold of `max` from `-∞`, and `max` with `-∞` once more):
  the specification's `attn` of those blocks. The row maximum and the row sum are lane reductions read at row `h`;
  the maximum reaches every column through a cast to a column and a broadcast, which only move the index.
-/
noncomputable section
namespace Cert.KernelIdeal.Block
open Cert.KernelIdeal Cert.KernelIdeal.Gen Cert.KernelIdeal.Value Idealize.ShloMosaic Idealize.ShloMosaic.ValueIdx Cert.CosineWeights

/-- The start of the row maximum, broadcast over the eight keys, is `-∞` at every key. -/
theorem start_apply (h : Fin 8) : k0_pay4 (F := Ideal) (ix1 h) = negInf := rfl

theorem softmax_block (P0 : Vec Ideal S1x16384x128 .f32) (P1 : Vec Ideal S1x8x128 .f32) (P2 : Vec Ideal S1x8x1 .f32)
    (h : Fin 8) (j : Fin 16384) :
    E3 (F := Ideal) P0 P1 P2 (ix3 (0 : Fin 1) h j)
      = attn (fun j w => P0 (ix3 (0 : Fin 1) j w)) (fun h w => P1 (ix3 (0 : Fin 1) h w))
          (fun h => P2 (ix3 (0 : Fin 1) h (0 : Fin 1))) h j := by
  have e0 : ix3_0 (ix3 (0 : Fin 1) h j) = ix2 h j := funext fun a => by match a with | ⟨0, _⟩ => rfl | ⟨1, _⟩ => rfl
  have e1 : ix3_1 (ix3 (0 : Fin 1) h j) = ix1 h := funext fun a => by match a with | ⟨0, _⟩ => rfl
  have e2 : ix3_2 (ix3 (0 : Fin 1) h j) = ix1 h := funext fun a => by match a with | ⟨0, _⟩ => rfl
  have e3 : ix3_3 (ix3 (0 : Fin 1) h j) = ix1 h := funext fun a => by match a with | ⟨0, _⟩ => rfl
  show FloatOps.divf _ _ = _
  rw [e0, e1, e2, e3]
  -- the largest weighted score of key `h`, as a fold over the memory rows
  have hm : multiReduction .maximumf [1] S8 (k0_pay2 (F := Ideal) P0 P1 P2) 0xFF800000#32 reduces_S8x16384_S8 (.inl rfl) rfl (ix1 h)
      = Finset.fold max (Ideal.ofBits .f32 0xFF800000#32)
          (fun k => weighted (fun j w => P0 (ix3 (0 : Fin 1) j w)) (fun h w => P1 (ix3 (0 : Fin 1) h w))
            (fun h => P2 (ix3 (0 : Fin 1) h (0 : Fin 1))) h k) Finset.univ := by
    rw [LibRowReduce.laneMax_apply]
    simp only [Payload.weighted_block]
  rw [LibRowReduce.laneSum_apply]
  simp only [exp, subf, maximumf, LibKeepdims.broadcastTo_a1_ab_apply, LibKeepdims.shapeCast_a_a1_apply,
    hm, Payload.weighted_block, start_apply,
    Ideal.divf_def, Ideal.exp_def, Ideal.subf_def, Ideal.maximumf_def]
  unfold attn expo rowMax negInf
  rfl

end Cert.KernelIdeal.Block
end
-- ==== Proof.Whole.lean ====
import proofs.«178364_j18262200942963_1_alg».proof.Proof.Gen.KernelIdeal.Value
import proofs.«178364_j18262200942963_1_alg».proof.Proof.Block
import proofs.«178364_j18262200942963_1_alg».proof.Proof.Spec
import Idealize.ShloMosaic.Lib.ValueLayout
import Idealize.ShloMosaic.Lib.Pipeline.Value
import Idealize.ShloMosaic.Lib.StableHlo.Run

/-
  From one grid point to the whole result array. The grid has one point per batch entry; at point `t` every window's
  block is batch entry `t` whole (memory `[1, 16384, 128]`, keys `[1, 8, 128]`, the strengths' column `[1, 8, 1]`,
  the result `[1, 8, 16384]`), so a block's coordinate `(0, r, s)` is the array's `(t, r, s)`. The strengths reach the
  kernel as a column `[64, 8, 1]` the host lays out from the `[64, 8]` argument, read back at `(b, h, 0)`.
  What point `t` writes back is therefore the specification's result restricted to batch entry `t`; the 64 blocks
  tile the result array, so after the run the array is the specification of the three argument arrays.
-/
noncomputable section
namespace Cert.KernelIdeal.Whole
open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.CosineWeights
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The strengths as the region finds them: the host has laid them out as a column per batch entry. -/
theorem strengths_col (c : Dev nD) :
    (V m c main_v0 : S64x8x1.Idx → EReal)
      = broadcastInDim S64x8x1 ![0, 1] bcast_S64x8_S64x8x1_0_1 (m ((c : Thread nD τ).loc main_arg2)) := by
  dsimp only [Gen.V, Gen.hostOps0]; after_results

theorem strengths_col_apply (c : Dev nD) (b : Fin 64) (h : Fin 8) :
    (V m c main_v0 : S64x8x1.Idx → EReal) (ix3 b h (0 : Fin 1)) = (m ((c : Thread nD τ).loc main_arg2) : S64x8.Idx → EReal) (ix2 b h) := by
  rw [strengths_col]
  exact broadcastInDim_apply _ bcast_S64x8_S64x8x1_0_1 _ _ (ix2 b h) (fun a => match a with
    | ⟨0, _⟩ => by show b.val = if (64 : Nat) = 1 then 0 else b.val; rw [if_neg (by decide)]
    | ⟨1, _⟩ => by show h.val = if (8 : Nat) = 1 then 0 else h.val; rw [if_neg (by decide)])

/-- Every window's block at grid point `t` is batch entry `t`, whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The result array: the specification of the three argument arrays. -/
def result (c : Dev nD) : S64x8x16384.Idx → EReal :=
  G (m ((c : Thread nD τ).loc main_arg0)) (m ((c : Thread nD τ).loc main_arg1)) (m ((c : Thread nD τ).loc main_arg2))

/-- What a grid point leaves in its output block, as one function of its three input blocks: the attention weights
    of the block's memory rows, keys and strengths. -/
def pointOut (x0 : Vec Ideal S1x16384x128 .f32) (x1 : Vec Ideal S1x8x128 .f32) (x2 : Vec Ideal S1x8x1 .f32) :
    S1x8x16384.Idx → EReal := fun z =>
  attn (fun j w => x0 (ix3 (0 : Fin 1) j w)) (fun h w => x1 (ix3 (0 : Fin 1) h w))
    (fun h => x2 (ix3 (0 : Fin 1) h (0 : Fin 1))) (z 1) (z 2)

theorem out_eq (x0 : Vec Ideal S1x16384x128 .f32) (x1 : Vec Ideal S1x8x128 .f32) (x2 : Vec Ideal S1x8x1 .f32) :
    out0_3 x0 x1 x2 = pointOut x0 x1 x2 := by
  funext y
  unfold out0_3
  rw [Value.canon3_eq]
  simp only [View.ld_unit_zero (S := S1x16384x128) hz, View.ld_unit_zero (S := S1x8x128) hz, View.ld_unit_zero (S := S1x8x1) hz]
  obtain ⟨h, j, rfl⟩ : ∃ (h : Fin 8) (j : Fin 16384), y = ix3 (0 : Fin 1) h j :=
    ⟨y 1, y 2, funext fun a => by match a with | ⟨0, _⟩ => exact Fin.ext (by have hy : (y 0).val < 1 := (y 0).isLt; show (y 0).val = 0; omega) | ⟨1, _⟩ => rfl | ⟨2, _⟩ => rfl⟩
  exact Block.softmax_block x0 x1 x2 h j

/-- The grid has one point per batch entry. -/
abbrev batchOf (t : Fin cfg0.N) : Fin 64 := ⟨t.val, by have h : t.val < grid0.N := t.isLt; rw [N_0] at h; exact h⟩

/-- Memory row `j` of the block staged at point `t` is memory row `j` of batch entry `t`. -/
theorem mem_block (c : Dev nD) (t : Fin cfg0.N) (j : Fin 16384) (w : Fin 128) :
    iblk m c 0 t (ix3 (0 : Fin 1) j w)
      = (m ((c : Thread nD τ).loc main_arg0) : S64x16384x128.Idx → EReal) (ix3 (batchOf t) j w) := by
  show V m c main_arg0 (((cfg0.win 0).blk t).view.emb (ix3 (0 : Fin 1) j w)) = _
  rw [V_main_arg0]
  obtain ⟨e0, e1, e2, -⟩ := idx_facts t
  refine congrArg _ (funext fun a => Fin.ext ?_)
  match a with
  | ⟨0, _⟩ => show win0_0.index t (0 : Fin 3) * 1 + 1 * 0 = t.val; omega
  | ⟨1, _⟩ => show win0_0.index t (1 : Fin 3) * 16384 + 1 * j.val = j.val; omega
  | ⟨2, _⟩ => show win0_0.index t (2 : Fin 3) * 128 + 1 * w.val = w.val; omega

/-- Key `h` of the block staged at point `t` is key `h` of batch entry `t`. -/
theorem key_block (c : Dev nD) (t : Fin cfg0.N) (h : Fin 8) (w : Fin 128) :
    iblk m c 1 t (ix3 (0 : Fin 1) h w)
      = (m ((c : Thread nD τ).loc main_arg1) : S64x8x128.Idx → EReal) (ix3 (batchOf t) h w) := by
  show V m c main_arg1 (((cfg0.win 1).blk t).view.emb (ix3 (0 : Fin 1) h w)) = _
  rw [V_main_arg1]
  obtain ⟨-, -, -, e0, e1, e2, -⟩ := idx_facts t
  refine congrArg _ (funext fun a => Fin.ext ?_)
  match a with
  | ⟨0, _⟩ => show win0_1.index t (0 : Fin 3) * 1 + 1 * 0 = t.val; omega
  | ⟨1, _⟩ => show win0_1.index t (1 : Fin 3) * 8 + 1 * h.val = h.val; omega
  | ⟨2, _⟩ => show win0_1.index t (2 : Fin 3) * 128 + 1 * w.val = w.val; omega

/-- Strength `h` of the column staged at point `t` is strength `h` of batch entry `t`. -/
theorem str_block (c : Dev nD) (t : Fin cfg0.N) (h : Fin 8) :
    iblk m c 2 t (ix3 (0 : Fin 1) h (0 : Fin 1))
      = (m ((c : Thread nD τ).loc main_arg2) : S64x8.Idx → EReal) (ix2 (batchOf t) h) := by
  show V m c main_v0 (((cfg0.win 2).blk t).view.emb (ix3 (0 : Fin 1) h (0 : Fin 1))) = _
  rw [← strengths_col_apply m c (batchOf t) h]
  obtain ⟨-, -, -, -, -, -, e0, e1, e2, -⟩ := idx_facts t
  refine congrArg _ (funext fun a => Fin.ext ?_)
  match a with
  | ⟨0, _⟩ => show win0_2.index t (0 : Fin 3) * 1 + 1 * 0 = t.val; omega
  | ⟨1, _⟩ => show win0_2.index t (1 : Fin 3) * 8 + 1 * h.val = h.val; omega
  | ⟨2, _⟩ => show win0_2.index t (2 : Fin 3) * 1 + 1 * 0 = 0; omega

/-- At grid point `t` the point's result, at key `z 1` and memory row `z 2` of the block, is the result array at batch
    entry `t`, that key and that row. -/
theorem point_eq (c : Dev nD) (t : Fin cfg0.N) (z : S1x8x16384.Idx) :
    pointOut (iblk m c 0 t) (iblk m c 1 t) (iblk m c 2 t) z
      = result m c (ix3 (batchOf t) (⟨(z 1).val, (z 1).isLt⟩ : Fin 8) (⟨(z 2).val, (z 2).isLt⟩ : Fin 16384)) := by
  unfold pointOut
  simp only [mem_block, key_block, str_block]
  rfl

theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3, out_eq]
  funext y
  have hy0 : (y 0).val < 1 := (y 0).isLt
  have hi : ((cfg0.win 3).blk t).view.emb y
      = ix3 (batchOf t) (⟨(((cfg0.win 3).xinj (grid0.coords t) y) 1).val, (((cfg0.win 3).xinj (grid0.coords t) y) 1).isLt⟩ : Fin 8)
          (⟨(((cfg0.win 3).xinj (grid0.coords t) y) 2).val, (((cfg0.win 3).xinj (grid0.coords t) y) 2).isLt⟩ : Fin 16384) := by
    obtain ⟨-, -, -, -, -, -, -, -, -, e0, e1, e2⟩ := idx_facts t
    refine funext fun a => Fin.ext ?_
    match a with
    | ⟨0, _⟩ => show win0_3.index t (0 : Fin 3) * 1 + 1 * (y 0).val = t.val; omega
    | ⟨1, _⟩ => show win0_3.index t (1 : Fin 3) * 8 + 1 * (y 1).val = (y 1).val; omega
    | ⟨2, _⟩ => show win0_3.index t (2 : Fin 3) * 16384 + 1 * (y 2).val = (y 2).val; omega
  have key : pointOut (iblk m c 0 t) (iblk m c 1 t) (iblk m c 2 t) ((cfg0.win 3).xinj (grid0.coords t) y)
      = result m c (((cfg0.win 3).blk t).view.emb y) :=
    (point_eq m c t ((cfg0.win 3).xinj (grid0.coords t) y)).trans (congrArg (result m c) hi.symm)
  revert key
  generalize result m c = R
  generalize pointOut (iblk m c 0 t) (iblk m c 1 t) (iblk m c 2 t) = P
  intro key
  exact key

/-- An index of the result array lies in point `t`'s block iff each coordinate is in the block's range on its axis. -/
theorem mem_blk (t : Fin cfg0.N) (i : S64x8x16384.Idx) :
    i ∈ ((cfg0.win 3).blk t).view.set ↔ ∀ a : Fin 3, win0_3.index t a * S1x8x16384.size a ≤ (i a).val
      ∧ (i a).val < win0_3.index t a * S1x8x16384.size a + S1x8x16384.size a := by
  show i ∈ ((View.whole main_v1).slice (win0_3.rect t)).set ↔ _
  rw [View.set_slice_whole, Rect.mem_set_unit]
  exact Iff.rfl

/-- The result array after the run is the specification: index `i` is covered by the point numbered `i 0`. -/
theorem final (c : Dev nD) : (dats m 0 c).arrAt 3 cfg0.N = result m c :=
  (dats m 0 c).arrAt_eq_of_cover 3 (result m c) (fun t _ => flushed_eq m c t) fun i => by
    have hi0 : (i 0).val < 64 := (i 0).isLt
    have hi1 : (i 1).val < 8 := (i 1).isLt
    have hi2 : (i 2).val < 16384 := (i 2).isLt
    have hN : (i 0).val < grid0.N := by rw [N_0]; exact hi0
    obtain ⟨-, -, -, -, -, -, -, -, -, e0, e1, e2⟩ := idx_facts (⟨(i 0).val, hN⟩ : Fin cfg0.N)
    refine ⟨⟨(i 0).val, hN⟩, flush0_3 _, ?_⟩
    rw [mem_blk]
    intro a
    match a with
    | ⟨0, _⟩ =>
      show win0_3.index ⟨(i 0).val, hN⟩ (0 : Fin 3) * 1 ≤ (i 0).val ∧ (i 0).val < win0_3.index ⟨(i 0).val, hN⟩ (0 : Fin 3) * 1 + 1
      have e0' : win0_3.index ⟨(i 0).val, hN⟩ (0 : Fin 3) = (i 0).val := e0
      omega
    | ⟨1, _⟩ =>
      show win0_3.index ⟨(i 0).val, hN⟩ (1 : Fin 3) * 8 ≤ (i 1).val ∧ (i 1).val < win0_3.index ⟨(i 0).val, hN⟩ (1 : Fin 3) * 8 + 8
      omega
    | ⟨2, _⟩ =>
      show win0_3.index ⟨(i 0).val, hN⟩ (2 : Fin 3) * 16384 ≤ (i 2).val ∧ (i 2).val < win0_3.index ⟨(i 0).val, hN⟩ (2 : Fin 3) * 16384 + 16384
      omega

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole
end
-- ==== Proof.Ref.lean ====
/-
  The reference computes the specification: its result array, read at batch `b`, key `h`, memory row `j`, is `attn`
  of that batch entry's memory, keys and strengths. Stage by stage: the batched product is the inner product of key
  `h` with row `j`; the two norms are square roots of sums of squares (each sum starts from zero); the broadcasts only
  move the index; softplus appears in the spelling that negates outright; the row maximum is a fold of `max` from `-∞`
  followed by one more `max` with `-∞`; and the normaliser is the sum of the exponentials, again from zero.
-/
import proofs.«178364_j18262200942963_1_alg».proof.Proof.Gen.ReferenceIdeal.Read
import proofs.«178364_j18262200942963_1_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.CosineWeights

variable (x0 : (⟨S64x16384x128, .f32⟩ : BufTy).Contents (Elt Ideal)) (x1 : (⟨S64x8x128, .f32⟩ : BufTy).Contents (Elt Ideal))
  (x2 : (⟨S64x8, .f32⟩ : BufTy).Contents (Elt Ideal))

/-! ## Where each stage reads its operands -/

theorem key_idx (b : Fin 64) (h : Fin 8) (j : Fin 16384) (k : Fin 128) : lidx_main_v0 (ix3 b h j) k = ix3 b h k :=
  funext fun a => by match a with | ⟨0, _⟩ => rfl | ⟨1, _⟩ => rfl | ⟨2, _⟩ => rfl
theorem mem_idx (b : Fin 64) (h : Fin 8) (j : Fin 16384) (k : Fin 128) : ridx_main_v0 (ix3 b h j) k = ix3 b j k :=
  funext fun a => by match a with | ⟨0, _⟩ => rfl | ⟨1, _⟩ => rfl | ⟨2, _⟩ => rfl
theorem memNorm_idx (b : Fin 64) (h : Fin 8) (j : Fin 16384) (k : Fin 128) :
    idx_main_call0_v1 (idx_main_v3 (idx_main_v5 (ix3 b h j))) k = ix3 b j k :=
  funext fun a => by match a with | ⟨0, _⟩ => rfl | ⟨1, _⟩ => rfl | ⟨2, _⟩ => rfl
theorem keyNorm_idx (b : Fin 64) (h : Fin 8) (j : Fin 16384) (k : Fin 128) :
    idx_main_call1_v1 (idx_main_v4 (idx_main_v6 (ix3 b h j))) k = ix3 b h k :=
  funext fun a => by match a with | ⟨0, _⟩ => rfl | ⟨1, _⟩ => rfl | ⟨2, _⟩ => rfl
theorem str_idx (b : Fin 64) (h : Fin 8) (j : Fin 16384) : idx_main_v12 (idx_main_v13 (ix3 b h j)) = ix2 b h :=
  funext fun a => by match a with | ⟨0, _⟩ => rfl | ⟨1, _⟩ => rfl
theorem max_idx (b : Fin 64) (h : Fin 8) (j : Fin 16384) : idx_main_v18 (idx_main_v19 (ix3 b h j)) = ix2 b h :=
  funext fun a => by match a with | ⟨0, _⟩ => rfl | ⟨1, _⟩ => rfl
theorem norm_idx (b : Fin 64) (h : Fin 8) (j : Fin 16384) : idx_main_v23 (idx_main_v24 (ix3 b h j)) = ix2 b h :=
  funext fun a => by match a with | ⟨0, _⟩ => rfl | ⟨1, _⟩ => rfl
theorem sum_idx (b : Fin 64) (h : Fin 8) (k : Fin 16384) : idx_main_v22 (ix2 b h) k = ix3 b h k :=
  funext fun a => by match a with | ⟨0, _⟩ => rfl | ⟨1, _⟩ => rfl | ⟨2, _⟩ => rfl

/-! ## The weighted scores -/

theorem ref_weighted (b : Fin 64) (h : Fin 8) (j : Fin 16384) :
    val_main_v14 (F := Ideal) x0 x1 x2 (ix3 b h j)
      = weighted (fun j w => x0 (ix3 b j w)) (fun h w => x1 (ix3 b h w)) (fun h => x2 (ix2 b h)) h j := by
  simp only [val_main_v14_apply, val_main_v10_apply, val_main_v0_apply, val_main_v9_apply, val_main_v7_apply,
    val_main_v5_apply, val_main_v3_apply, val_main_v1_apply, val_main_call0_v1_apply, val_main_call0_v0_apply,
    val_main_call0_cst_apply, val_main_v6_apply, val_main_v4_apply, val_main_v2_apply, val_main_call1_v1_apply,
    val_main_call1_v0_apply, val_main_call1_cst_apply, val_main_v8_apply, val_main_cst_apply, val_main_v13_apply,
    val_main_v12_apply, val_main_v11_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, val_main_call2_v0_apply, val_main_call2_v2_apply,
    val_main_call2_v5_apply, val_main_call2_cst_apply,
    key_idx, mem_idx, memNorm_idx, keyNorm_idx, str_idx]
  simp only [Ideal.mulf_def, Ideal.hostDivf_def, Ideal.addf_def, Ideal.subf_def, Ideal.maximumf_def,
    Ideal.hostUnary_sqrt_def, Ideal.hostUnary_log1p_def, Ideal.hostUnary_exp_def, Ideal.hostNegf_def, Ideal.negf_def,
    Ideal.hostAbsf_def, Ideal.absf_def, Ideal.cmpf_def, Ideal.ofBits_def, Ideal.ofBits_zero_f32, zero_add, softplus_neg]
  rfl

/-! ## The row maximum -/

/-- The reference's maximum over the memory rows, read at batch `b` and key `h`: the fold of `max` over that key's row
    from the starting value. -/
theorem host_rowMax (x : S64x8x16384.Idx → EReal) (init : S_.Idx → EReal) (b : Fin 64) (h : Fin 8) :
    Host.reduce (FloatOps.maximumf (F := Ideal) (φ := .f32)) x init reducesTo_S64x8x16384_S64x8_d2 h_S_ (ix2 b h)
      = (Finset.univ : Finset (Fin 16384)).fold max (init (Shape.Idx.first h_S_)) (fun k => x (ix3 b h k)) := by
  rw [Host.reduce_eq_fold_single (FloatOps.maximumf (F := Ideal) (φ := .f32)) x init reducesTo_S64x8x16384_S64x8_d2 (by decide) h_S_]
  refine congrArg (Finset.fold max (init (Shape.Idx.first h_S_)) · Finset.univ) (funext fun k => congrArg x ?_)
  exact funext fun a => Fin.ext (by match a with | ⟨0, _⟩ => rfl | ⟨1, _⟩ => rfl | ⟨2, _⟩ => rfl)

theorem ref_rowMax (b : Fin 64) (h : Fin 8) :
    val_main_v17 (F := Ideal) x0 x1 x2 (ix2 b h)
      = rowMax (fun j w => x0 (ix3 b j w)) (fun h w => x1 (ix3 b h w)) (fun h => x2 (ix2 b h)) h := by
  rw [val_main_v17_apply, val_main_v16_apply, val_main_cst_1_apply]
  unfold val_main_v15
  rw [host_rowMax, val_main_cst_0_apply]
  simp only [ref_weighted, Ideal.maximumf_def, Ideal.ofBits_def]
  unfold rowMax negInf
  rfl

/-! ## The exponentials and their sum -/

theorem ref_expo (b : Fin 64) (h : Fin 8) (j : Fin 16384) :
    val_main_v21 (F := Ideal) x0 x1 x2 (ix3 b h j)
      = expo (fun j w => x0 (ix3 b j w)) (fun h w => x1 (ix3 b h w)) (fun h => x2 (ix2 b h)) h j := by
  rw [val_main_v21_apply, val_main_v20_apply, val_main_v19_apply, val_main_v18_apply, max_idx, ref_rowMax, ref_weighted]
  rfl

theorem ref_attn (b : Fin 64) (h : Fin 8) (j : Fin 16384) :
    val_main_v25 (F := Ideal) x0 x1 x2 (ix3 b h j)
      = attn (fun j w => x0 (ix3 b j w)) (fun h w => x1 (ix3 b h w)) (fun h => x2 (ix2 b h)) h j := by
  rw [val_main_v25_apply, val_main_v24_apply, val_main_v23_apply, norm_idx, val_main_v22_apply, val_main_cst_2_apply]
  simp only [sum_idx, ref_expo, Ideal.ofBits_def, Ideal.ofBits_zero_f32, zero_add, Ideal.hostDivf_def]
  rfl

/-- The reference's result array is the specification of the three argument arrays. -/
theorem ref_eq : val_main_v25 (F := Ideal) x0 x1 x2 = G x0 x1 x2 := by
  funext i
  obtain ⟨b, h, j, rfl⟩ : ∃ (b : Fin 64) (h : Fin 8) (j : Fin 16384), i = ix3 b h j := ⟨i 0, i 1, i 2, eq_ix3 i⟩
  exact ref_attn x0 x1 x2 b h j

end Cert.ReferenceIdeal.RefValue

end
-- ==== Proof.lean ====
/- The proof of `Cert.Claim`: the kernel and the reference compute the same attention weights.

   For each of 64 batch entries, eight keys are scored against 16384 memory rows by cosine similarity,
   `⟨key, row⟩ / (‖row‖ · ‖key‖ + ε)`, the scores are sharpened by `softplus` of the key's strength, and a softmax is
   taken along the memory rows (Proof/Spec.lean: `attn`, and `G` over the whole arrays). On the extended reals:
   * the kernel, one batch entry per grid point, takes the inner products and the memory rows' sums of squares as
     matrix products (the second against a row of ones), the keys' sums of squares as a lane sum, and the softmax's
     maximum and normaliser as lane reductions (Proof/Dots.lean, Proof/Payload.lean, Proof/Block.lean); its 64 result
     blocks tile the result array (Proof/Whole.lean);
   * the reference takes them as one batched product and sums along the last axis (Proof/Ref.lean).
   The two differ only in spelling: a product with one, sums that start from zero, negation as `0 − x`, a test for
   "not a number" that never fires on the extended reals, and the order of a `max` fold. No cancellation or
   distributivity is used, so the precondition that the inputs are finite is never opened.
   The three frames are the generated ones (the reference's from its generated run); the idealization rewrote
   nothing, so `preserves` is trivial. -/
import proofs.«178364_j18262200942963_1_alg».proof.Defs
import proofs.«178364_j18262200942963_1_alg».proof.Proof.Gen.Kernel
import proofs.«178364_j18262200942963_1_alg».proof.Proof.Gen.Kernel.Skeleton
import proofs.«178364_j18262200942963_1_alg».proof.Proof.Gen.Kernel.Launch
import proofs.«178364_j18262200942963_1_alg».proof.Proof.Gen.Kernel.Points
import proofs.«178364_j18262200942963_1_alg».proof.Proof.Gen.Kernel.Frame
import proofs.«178364_j18262200942963_1_alg».proof.Proof.Gen.KernelIdeal
import proofs.«178364_j18262200942963_1_alg».proof.Proof.Gen.KernelIdeal.Skeleton
import proofs.«178364_j18262200942963_1_alg».proof.Proof.Gen.KernelIdeal.Launch
import proofs.«178364_j18262200942963_1_alg».proof.Proof.Gen.KernelIdeal.Points
import proofs.«178364_j18262200942963_1_alg».proof.Proof.Gen.KernelIdeal.Frame
import proofs.«178364_j18262200942963_1_alg».proof.Proof.Gen.ReferenceIdeal
import proofs.«178364_j18262200942963_1_alg».proof.Proof.Gen.Pre_finite_inputs
import proofs.«178364_j18262200942963_1_alg».proof.Proof.Gen.KernelIdeal.Value
import proofs.«178364_j18262200942963_1_alg».proof.Proof.Gen.ReferenceIdeal.Run
import proofs.«178364_j18262200942963_1_alg».proof.Proof.Gen.ReferenceIdeal.Read
import proofs.«178364_j18262200942963_1_alg».proof.Proof.Whole
import proofs.«178364_j18262200942963_1_alg».proof.Proof.Ref
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the specification `G` of the argument arrays, which agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.ref_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
